-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S8192x512 : Shape := ⟨2, ![8192, 512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512x1 .f32) (main_arg5 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x1 .f32 := Host.absf main_arg4
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16384x512 .f32) (main_arg1 : FVec F S8192x512 .f32) (main_arg2 : FVec F S512x512 .f32) (main_arg3 : FVec F S512x512 .f32) (main_arg4 : FVec F S512x1 .f32) (main_arg5 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S16384x512 : Shape := ⟨2, ![16384, 512]⟩
abbrev S8192x512 : Shape := ⟨2, ![8192, 512]⟩
abbrev S512x512 : Shape := ⟨2, ![512, 512]⟩
abbrev S512x1 : Shape := ⟨2, ![512, 1]⟩
abbrev S1 : Shape := ⟨1, ![1]⟩
abbrev S8192x1 : Shape := ⟨2, ![8192, 1]⟩
abbrev S1x1 : Shape := ⟨2, ![1, 1]⟩
abbrev S1x8192 : Shape := ⟨2, ![1, 8192]⟩
abbrev S16384x8192 : Shape := ⟨2, ![16384, 8192]⟩
abbrev S2048x512 : Shape := ⟨2, ![2048, 512]⟩
abbrev S1x1024 : Shape := ⟨2, ![1, 1024]⟩
abbrev S2048x1024 : Shape := ⟨2, ![2048, 1024]⟩
abbrev S2048x1 : Shape := ⟨2, ![2048, 1]⟩

abbrev nBuf : Space → Nat
  | .hbm => 18
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S8192x512, .f32⟩
  | .hbm, ⟨2, _⟩ => ⟨S512x512, .f32⟩
  | .hbm, ⟨3, _⟩ => ⟨S512x512, .f32⟩
  | .hbm, ⟨4, _⟩ => ⟨S512x1, .f32⟩
  | .hbm, ⟨5, _⟩ => ⟨S1, .f32⟩
  | .hbm, ⟨6, _⟩ => ⟨S512x1, .f32⟩
  | .hbm, ⟨7, _⟩ => ⟨S512x1, .bf16⟩
  | .hbm, ⟨8, _⟩ => ⟨S512x1, .f32⟩
  | .hbm, ⟨9, _⟩ => ⟨S512x1, .bf16⟩
  | .hbm, ⟨10, _⟩ => ⟨S8192x512, .bf16⟩
  | .hbm, ⟨11, _⟩ => ⟨S8192x1, .f32⟩
  | .hbm, ⟨12, _⟩ => ⟨S1x1, .f32⟩
  | .hbm, ⟨13, _⟩ => ⟨S8192x1, .f32⟩
  | .hbm, ⟨14, _⟩ => ⟨S8192x1, .f32⟩
  | .hbm, ⟨15, _⟩ => ⟨S1x8192, .f32⟩
  | .hbm, ⟨16, _⟩ => ⟨S16384x512, .bf16⟩
  | .hbm, ⟨17, _⟩ => ⟨S16384x8192, .f32⟩
  | .local _ .vmem, ⟨0, _⟩ => ⟨S2048x512, .bf16⟩
  | .local _ .vmem, ⟨1, _⟩ => ⟨S2048x512, .bf16⟩
  | .local _ .vmem, ⟨2, _⟩ => ⟨S512x1, .bf16⟩
  | .local _ .vmem, ⟨3, _⟩ => ⟨S1x1024, .f32⟩
  | .local _ .vmem, ⟨4, _⟩ => ⟨S1x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  transposes_S8192x1_S1x8192_1_0 : S8192x1.Transposes [1, 0] S1x8192
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S512x512_S512x1_S512x1_1_0_0_1_n_n_wf : DotDims.WF S512x512 S512x1 S512x1 [1] [0] [0] [1] [] []
  dot_S8192x512_S512x1_S8192x1_1_0_0_1_n_n_wf : DotDims.WF S8192x512 S512x1 S8192x1 [1] [0] [0] [1] [] []
  dot_S2048x512_S512x1_S2048x1_1_0_0_1_n_n_wf : DotDims.WF S2048x512 S512x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .bf16 = 32 ∨ (Rect.block (s := S16384x512) S2048x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .bf16 = 32 ∨ (Rect.block (s := S512x1) S512x1.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x8192.size a
  hwx0_3 : ∀ i : grid0.Coords, EltTy.bits .f32 = 32 ∨ (Rect.block (s := S16384x8192) S2048x1024.size (cc0_transform_3 i) (hinb0_3 i)).WholeWords (EltTy.packing .f32)

variable [Facts₀]

def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

abbrev win0_0 : Pipeline.Window sig grid0 :=
  Pipeline.Window.ofSpec (Memref.whole main_v10) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S8192x512 : Shape := ⟨2, ![8192, 512]⟩
abbrev S512x512 : Shape := ⟨2, ![512, 512]⟩
abbrev S512x1 : Shape := ⟨2, ![512, 1]⟩
abbrev S1 : Shape := ⟨1, ![1]⟩
abbrev S16384x1 : Shape := ⟨2, ![16384, 1]⟩
abbrev S8192x1 : Shape := ⟨2, ![8192, 1]⟩
abbrev S1x8192 : Shape := ⟨2, ![1, 8192]⟩
abbrev S16384x8192 : Shape := ⟨2, ![16384, 8192]⟩
abbrev S1x1 : Shape := ⟨2, ![1, 1]⟩

abbrev nBuf : Space → Nat
  | .hbm => 17
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S8192x512, .f32⟩
  | .hbm, ⟨2, _⟩ => ⟨S512x512, .f32⟩
  | .hbm, ⟨3, _⟩ => ⟨S512x512, .f32⟩
  | .hbm, ⟨4, _⟩ => ⟨S512x1, .f32⟩
  | .hbm, ⟨5, _⟩ => ⟨S1, .f32⟩
  | .hbm, ⟨6, _⟩ => ⟨S16384x512, .f32⟩
  | .hbm, ⟨7, _⟩ => ⟨S16384x1, .f32⟩
  | .hbm, ⟨8, _⟩ => ⟨S8192x512, .f32⟩
  | .hbm, ⟨9, _⟩ => ⟨S8192x1, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S1x1, .f32⟩
  | .hbm, ⟨15, _⟩ => ⟨S16384x8192, .f32⟩
  | .hbm, ⟨16, _⟩ => ⟨S16384x8192, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S8192x1_S1x8192_1_0 : S8192x1.Transposes [1, 0] S1x8192
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  bcast_S1_S1x1_1 : S1.BroadcastsInDim S1x1 (![1] : Fin 1 → Fin S1x1.rank)
  bcast_S1x1_S16384x8192_0_1 : S1x1.BroadcastsInDim S16384x8192 (![0, 1] : Fin 2 → Fin S16384x8192.rank)
  dot_S16384x512_S512x512_S16384x512_1_0_0_1_n_n_wf : DotDims.WF S16384x512 S512x512 S16384x512 [1] [0] [0] [1] [] []
  dot_S16384x512_S512x1_S16384x1_1_0_0_1_n_n_wf : DotDims.WF S16384x512 S512x1 S16384x1 [1] [0] [0] [1] [] []
  dot_S8192x512_S512x512_S8192x512_1_0_0_1_n_n_wf : DotDims.WF S8192x512 S512x512 S8192x512 [1] [0] [0] [1] [] []
  dot_S8192x512_S512x1_S8192x1_1_0_0_1_n_n_wf : DotDims.WF S8192x512 S512x1 S8192x1 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf

class Facts : Prop extends Facts₀ where

variable [Facts]
-- ==== Proof.StepValues.lean ====
/-
  What one grid step of the kernel leaves behind, as plain values.  The body has two branches.  On the first
  column tile of a row tile it multiplies the row tile of the node matrix by the folded weight column and
  stores the product, a column of 2048 row scores, in the scratch; on every column tile it then stores, in the
  output tile, the scratch column added to the current slice of the column-score row, each broadcast to the
  tile's shape.  So after a step of the first kind the scratch holds the fresh product and the output tile is
  the broadcast sum over that fresh product; after a step of the second kind the scratch is untouched and the
  output tile is the broadcast sum over what the scratch already held.
-/
import proofs.«401731_j8005819040423_3_alg».proof.Proof.Gen.KernelIdeal.Frame
import Idealize.ShloMosaic.Lib.Pipeline.Value
import Idealize.ShloMosaic.Lib.Tactic

noncomputable section

namespace Cert.KernelIdeal.ScoreValue

open Cert.KernelIdeal Cert.KernelIdeal.Gen Idealize.ShloMosaic Idealize.ShloMosaic.TcCoe Idealize.SL.Sem
open Idealize.ShloMosaic.Pipeline (Dat)

variable {F : FTy → Type} [FloatOps F]

/-- A two-axis offset of zeros is the zero offset. -/
theorem zero_offset : (![0, 0] : Fin 2 → Nat) = fun _ => 0 := funext fun a => by fin_cases a <;> rfl

/-- First column tile: the scratch ends holding the row tile times the folded weight column. -/
theorem scratch_first (c : Dev nD) (i : grid0.Coords) (a2 : Memref sig .tc .vmem S2048x512 .bf16) (h2 : a2.IsWhole)
    (a3 : Memref sig .tc .vmem S512x1 .bf16) (h3 : a3.IsWhole) (a4 : Memref sig .tc .vmem S1x1024 .f32) (h4 : a4.IsWhole)
    (a5 : Memref sig .tc .vmem S2048x1024 .f32) (h5 : a5.IsWhole) (a6 : Memref sig .tc .vmem S2048x1 .f32) (h6 : a6.IsWhole)
    (hc : cond0_0 i) (x0 : Vec F S2048x512 .bf16) (x1 : Vec F S512x1 .bf16) (x2 : Vec F S1x1024 .f32) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero zero_offset]
  simp only [View.readAt_eq_ld, h2.read_unread, h3.read_unread, View.ld_unit_zero (S := S2048x512) zero_offset,
    View.ld_unit_zero (S := S512x1) zero_offset]

/-- First column tile: the output tile is the broadcast sum of the fresh product and the column-score slice. -/
theorem tile_first (c : Dev nD) (i : grid0.Coords) (a2 : Memref sig .tc .vmem S2048x512 .bf16) (h2 : a2.IsWhole)
    (a3 : Memref sig .tc .vmem S512x1 .bf16) (h3 : a3.IsWhole) (a4 : Memref sig .tc .vmem S1x1024 .f32) (h4 : a4.IsWhole)
    (a5 : Memref sig .tc .vmem S2048x1024 .f32) (h5 : a5.IsWhole) (a6 : Memref sig .tc .vmem S2048x1 .f32) (h6 : a6.IsWhole)
    (hc : cond0_0 i) (x0 : Vec F S2048x512 .bf16) (x1 : Vec F S512x1 .bf16) (x2 : Vec F S1x1024 .f32) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero zero_offset]
  simp only [View.readAt_eq_ld, h2.read_unread, h3.read_unread, h4.read_unread,
    View.ld_unit_zero (S := S2048x512) zero_offset, View.ld_unit_zero (S := S512x1) zero_offset,
    View.ld_unit_zero (S := S1x1024) zero_offset, View.readCov_unit_zero (S := S2048x1) _ zero_offset]

/-- Later column tiles: the output tile is the broadcast sum of what the scratch held and the column-score slice. -/
theorem tile_later (c : Dev nD) (i : grid0.Coords) (a2 : Memref sig .tc .vmem S2048x512 .bf16) (h2 : a2.IsWhole)
    (a3 : Memref sig .tc .vmem S512x1 .bf16) (h3 : a3.IsWhole) (a4 : Memref sig .tc .vmem S1x1024 .f32) (h4 : a4.IsWhole)
    (a5 : Memref sig .tc .vmem S2048x1024 .f32) (h5 : a5.IsWhole) (a6 : Memref sig .tc .vmem S2048x1 .f32) (h6 : a6.IsWhole)
    (hc : ¬cond0_0 i) (x0 : Vec F S2048x512 .bf16) (x1 : Vec F S512x1 .bf16) (x2 : Vec F S1x1024 .f32)
    (xs : Vec F S2048x1 .f32) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero zero_offset]
  simp only [View.readAt_eq_ld, h4.read_unread, h6.read_unread, View.ld_unit_zero (S := S1x1024) zero_offset,
    View.ld_unit_zero (S := S2048x1) zero_offset]

variable (m : (ℓ : Loc nD τ sig) → Buf (Elt F) ℓ)

/-- After every grid step the output tile is the broadcast sum over what the scratch holds after that same step. -/
theorem tile_of_scratch (c : Dev nD) (t : Fin cfg0.N) :
    (outsAt0 m c t.val t.isLt).1 = k0_pay2 (outsAt0 m c t.val t.isLt).2 (iblk m c 2 t) := by
  by_cases h0 : t.val % 8 = 0
  · rw [outsAt0_A m c t h0]
    dsimp only
    rw [tile_first, scratch_first]
  · rw [outsAt0_B m c t h0]
    dsimp only
    rw [tile_later]
    rfl

/-- After a first column tile the scratch is the product of that step's row tile and weight column. -/
theorem scratch_at_first (c : Dev nD) (t : Fin cfg0.N) (h0 : t.val % 8 = 0) :
    (outsAt0 m c t.val t.isLt).2 = k0_pay1 (iblk m c 0 t) (iblk m c 1 t) := by
  rw [outsAt0_A m c t h0]
  dsimp only
  rw [scratch_first]

/-- After a later column tile the scratch is what the step before left. -/
theorem scratch_at_later (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

end Cert.KernelIdeal.ScoreValue

end
-- ==== Proof.TileEntries.lean ====
/-
  One grid step's arithmetic read entry by entry, on the extended reals.  Row p of the product of a
  2048 x 512 tile with a 512 x 1 column is the inner product of the tile's row p with the column (the matrix
  unit starts from a zero accumulator, and a change of float format is the identity here).  Entry (p, q) of
  the output tile is entry p of the score column plus entry q of the score row: each operand is broadcast
  along the axis on which it has extent one.
-/
import proofs.«401731_j8005819040423_3_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.ScoreValue

open Cert.KernelIdeal Cert.KernelIdeal.Gen Idealize.ShloMosaic Idealize.ShloMosaic.ValueIdx

/-- A column of extent one on the second axis, broadcast across b columns, reads at (p, c) its own row p. -/
theorem broadcast_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The four coordinates of the tile product's operand indices: the left operand is read at (row, k), the
    right at (k, column). -/
theorem tileDot_lhs_0 (i : S2048x1.Idx) (q : dot_S2048x512_S512x1_S2048x1_1_0_0_1_n_n.contr.Idx) :
    (dot_S2048x512_S512x1_S2048x1_1_0_0_1_n_n.lhsIdx i q 0).val = (i 0).val := by
  unfold DotDims.lhsIdx
  rw [dif_neg (show ¬(0 : Fin S2048x512.rank) ∈ dot_S2048x512_S512x1_S2048x1_1_0_0_1_n_n.lhsBatch by decide), dif_pos (show (0 : Fin S2048x512.rank) ∈ dot_S2048x512_S512x1_S2048x1_1_0_0_1_n_n.lhsNonContracting by decide)]
  rfl
theorem tileDot_lhs_1 (i : S2048x1.Idx) (q : dot_S2048x512_S512x1_S2048x1_1_0_0_1_n_n.contr.Idx) :
    (dot_S2048x512_S512x1_S2048x1_1_0_0_1_n_n.lhsIdx i q 1).val = (q ⟨0, by decide⟩).val :=
  dot_S2048x512_S512x1_S2048x1_1_0_0_1_n_n.lhsIdx_val_of_single rfl i q
theorem tileDot_rhs_0 (i : S2048x1.Idx) (q : dot_S2048x512_S512x1_S2048x1_1_0_0_1_n_n.contr.Idx) :
    (dot_S2048x512_S512x1_S2048x1_1_0_0_1_n_n.rhsIdx i q 0).val = (q ⟨0, by decide⟩).val :=
  dot_S2048x512_S512x1_S2048x1_1_0_0_1_n_n.rhsIdx_val_of_single rfl i q
theorem tileDot_rhs_1 (i : S2048x1.Idx) (q : dot_S2048x512_S512x1_S2048x1_1_0_0_1_n_n.contr.Idx) :
    (dot_S2048x512_S512x1_S2048x1_1_0_0_1_n_n.rhsIdx i q 1).val = (i 1).val := by
  unfold DotDims.rhsIdx
  rw [dif_neg (show ¬(1 : Fin S512x1.rank) ∈ dot_S2048x512_S512x1_S2048x1_1_0_0_1_n_n.rhsBatch by decide), dif_pos (show (1 : Fin S512x1.rank) ∈ dot_S2048x512_S512x1_S2048x1_1_0_0_1_n_n.rhsNonContracting by decide)]
  rfl

/-- Row p of the tile product is the inner product of the tile's row p with the weight column. -/
theorem product_entry (x0 : FVec Ideal S2048x512 .bf16) (x1 : FVec Ideal S512x1 .bf16) (p : Fin 2048) :
    k0_pay1 (F := Ideal) x0 x1 (ix2 p (0 : Fin 1)) = ∑ k : Fin 512, x0 (ix2 p k) * x1 (ix2 k (0 : Fin 1)) := by
  unfold k0_pay1
  simp only [shapeCast_self, matmul]
  rw [Ideal.matmul_constant_zero_apply, ← Equiv.sum_comp (contrEquiv1 dot_S2048x512_S512x1_S2048x1_1_0_0_1_n_n 512 rfl rfl).symm]
  refine Finset.sum_congr rfl fun k _ => ?_
  have hk := contrEquiv1_symm_val dot_S2048x512_S512x1_S2048x1_1_0_0_1_n_n 512 rfl rfl k
  have el : dot_S2048x512_S512x1_S2048x1_1_0_0_1_n_n.lhsIdx (ix2 p (0 : Fin 1)) ((contrEquiv1 dot_S2048x512_S512x1_S2048x1_1_0_0_1_n_n 512 rfl rfl).symm k) = ix2 p k := funext fun a => Fin.ext (by
    match a with
    | ⟨0, _⟩ => exact tileDot_lhs_0 _ _
    | ⟨1, _⟩ => exact (tileDot_lhs_1 _ _).trans hk)
  have er : dot_S2048x512_S512x1_S2048x1_1_0_0_1_n_n.rhsIdx (ix2 p (0 : Fin 1)) ((contrEquiv1 dot_S2048x512_S512x1_S2048x1_1_0_0_1_n_n 512 rfl rfl).symm k) = ix2 k (0 : Fin 1) := funext fun a => Fin.ext (by
    match a with
    | ⟨0, _⟩ => exact (tileDot_rhs_0 _ _).trans hk
    | ⟨1, _⟩ => exact tileDot_rhs_1 _ _)
  rw [el, er]

/-- Entry (p, q) of the output tile is entry p of the score column plus entry q of the score row. -/
theorem tile_entry (s : FVec Ideal S2048x1 .f32) (v : FVec Ideal S1x1024 .f32) (p : Fin 2048) (q : Fin 1024) :
    k0_pay2 (F := Ideal) s v (ix2 p q) = s (ix2 p (0 : Fin 1)) + v (ix2 (0 : Fin 1) q) := by
  unfold k0_pay2
  simp only [shapeCast_self]
  rw [addf_apply, broadcast_column_apply, broadcastTo_1b_ab_apply]

end Cert.KernelIdeal.ScoreValue

end
-- ==== Proof.LibExtReal.lean ====
/-
  Extended reals that are real numbers.  The extended reals carry two infinities, and the distributive law
  x * (a + b) = x * a + x * b fails there (take x = +∞, a = 1, b = -1).  It does hold when every term is a
  real number, and being a real number is preserved by finite sums, products, maxima, and by quotients whose
  divisor is a real number other than zero.  This file collects those facts, and the one identity built on
  them: a sum over 2n terms whose second half multiplies one fixed finite factor splits as the first half's sum
  plus that factor times the sum of the second half's other factors.
-/
import Idealize.ShloMosaic.PureOps.Ideal.Laws

namespace Cert.ExtReal

open Idealize.ShloMosaic

/-- The extended real `x` is (the image of) a real number. -/
def IsFin (x : EReal) : Prop := ∃ r : ℝ, x = (r : EReal)

theorem IsFin.coe (r : ℝ) : IsFin (r : EReal) := ⟨r, rfl⟩

theorem IsFin.zero : IsFin 0 := ⟨0, EReal.coe_zero.symm⟩

theorem IsFin.one : IsFin 1 := ⟨1, EReal.coe_one.symm⟩

theorem IsFin.add {x y : EReal} (hx : IsFin x) (hy : IsFin y) : IsFin (x + y) := by
  obtain ⟨a, rfl⟩ := hx; obtain ⟨b, rfl⟩ := hy
  exact ⟨a + b, (EReal.coe_add a b).symm⟩

theorem IsFin.mul {x y : EReal} (hx : IsFin x) (hy : IsFin y) : IsFin (x * y) := by
  obtain ⟨a, rfl⟩ := hx; obtain ⟨b, rfl⟩ := hy
  exact ⟨a * b, (EReal.coe_mul a b).symm⟩

theorem IsFin.max {x y : EReal} (hx : IsFin x) (hy : IsFin y) : IsFin (max x y) := by
  rcases le_total x y with h | h
  · rw [max_eq_right h]; exact hy
  · rw [max_eq_left h]; exact hx

/-- A finite sum of real numbers is a real number. -/
theorem IsFin.sum {ι : Type} (s : Finset ι) (f : ι → EReal) : (∀ i ∈ s, IsFin (f i)) → IsFin (∑ i ∈ s, f i) := by
  classical
  refine Finset.induction_on s (fun _ => ?_) (fun a s ha ih h => ?_)
  · rw [Finset.sum_empty]; exact IsFin.zero
  · rw [Finset.sum_insert ha]
    exact (h a (Finset.mem_insert_self a s)).add (ih fun i hi => h i (Finset.mem_insert_of_mem hi))

/-- The quotient of two real numbers, the divisor not zero, is a real number. -/
theorem IsFin.div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- The larger of anything and one is not zero. -/
theorem max_one_ne_zero (x : EReal) : max x 1 ≠ 0 :=
  (lt_of_lt_of_le zero_lt_one (le_max_right x 1)).ne'

/-- Among real numbers multiplication distributes over addition. -/
theorem mul_add_of_isFin {x y z : EReal} (hx : IsFin x) (hy : IsFin y) (hz : IsFin z) :
    x * (y + z) = x * y + x * z := by
  obtain ⟨a, rfl⟩ := hx; obtain ⟨b, rfl⟩ := hy; obtain ⟨c, rfl⟩ := hz
  exact_mod_cast mul_add a b c

/-- A real factor moves inside a finite sum of real numbers. -/
theorem mul_sum_of_isFin {ι : Type} (s : Finset ι) (x : EReal) (f : ι → EReal) (hx : IsFin x) :
    (∀ i ∈ s, IsFin (f i)) → x * ∑ i ∈ s, f i = ∑ i ∈ s, x * f i := by
  classical
  refine Finset.induction_on s (fun _ => ?_) (fun a s ha ih h => ?_)
  · rw [Finset.sum_empty, Finset.sum_empty, mul_zero]
  · rw [Finset.sum_insert ha, Finset.sum_insert ha,
      mul_add_of_isFin hx (h a (Finset.mem_insert_self a s))
        (IsFin.sum s f fun i hi => h i (Finset.mem_insert_of_mem hi)),
      ih fun i hi => h i (Finset.mem_insert_of_mem hi)]

/-- A sum of products over `n + n` terms, whose first `n` left factors are `u` and whose last `n` left factors
    are all the one real number `x`, the right factors being `v` then the real numbers `w`: it is the sum of
    `u d * v d` plus `x` times the sum of `w`. -/
theorem sum_two_halves {n : ℕ} (l r : Fin (n + n) → EReal) (u v w : Fin n → EReal) (x : EReal)
    (hl1 : ∀ d, l (Fin.castAdd n d) = u d) (hl2 : ∀ d, l (Fin.natAdd n d) = x)
    (hr1 : ∀ d, r (Fin.castAdd n d) = v d) (hr2 : ∀ d, r (Fin.natAdd n d) = w d)
    (hx : IsFin x) (hw : ∀ d, IsFin (w d)) :
    ∑ k, l k * r k = (∑ d, u d * v d) + x * ∑ d, w d := by
  rw [Fin.sum_univ_add, mul_sum_of_isFin Finset.univ x w hx fun d _ => hw d]
  congr 1
  · exact Finset.sum_congr rfl fun d _ => by rw [hl1, hr1]
  · exact Finset.sum_congr rfl fun d _ => by rw [hl2, hr2]

end Cert.ExtReal
-- ==== Proof.Rebracket.lean ====
/-
  The one algebraic law behind the score matrix.  A row vector times a matrix times a column vector can be
  bracketed either way: sum over k of a k * (sum over l of b k l * c l) equals sum over l of
  (sum over k of a k * b k l) * c l.  On the extended reals this needs every entry to be a real number,
  because it moves a factor across a sum twice (distributivity fails at the infinities); between the two
  uses the double sum is re-ordered, which is free.
-/
import proofs.«401731_j8005819040423_3_alg».proof.Proof.LibExtReal

namespace Cert.Score

open Cert.ExtReal

/-- Re-bracketing a vector-matrix-vector product of real numbers: fold the matrix into the right vector first,
    or into the left vector first. -/
theorem sum_mul_sum_rebracket {K L : Type} [Fintype K] [Fintype L] (a : K → EReal) (b : K → L → EReal)
    (c : L → EReal) (ha : ∀ k, IsFin (a k)) (hb : ∀ k l, IsFin (b k l)) (hc : ∀ l, IsFin (c l)) :
    ∑ k, a k * ∑ l, b k l * c l = ∑ l, (∑ k, a k * b k l) * c l := by
  calc ∑ k, a k * ∑ l, b k l * c l
      = ∑ k, ∑ l, a k * (b k l * c l) :=
        Finset.sum_congr rfl fun k _ =>
          mul_sum_of_isFin Finset.univ (a k) _ (ha k) fun l _ => (hb k l).mul (hc l)
    _ = ∑ l, ∑ k, a k * (b k l * c l) := Finset.sum_comm
    _ = ∑ l, ∑ k, c l * (a k * b k l) :=
        Finset.sum_congr rfl fun l _ => Finset.sum_congr rfl fun k _ => by
          rw [← mul_assoc, mul_comm]
    _ = ∑ l, c l * ∑ k, a k * b k l :=
        Finset.sum_congr rfl fun l _ =>
          (mul_sum_of_isFin Finset.univ (c l) _ (hc l) fun k _ => (ha k).mul (hb k l)).symm
    _ = ∑ l, (∑ k, a k * b k l) * c l := Finset.sum_congr rfl fun l _ => mul_comm _ _

end Cert.Score
-- ==== Proof.ScoreSpec.lean ====
/-
  The score matrix, as a function of its six arguments, entry by entry.  Entry (r, c) is the score of node row
  r plus the score of sub-event row c plus the bias, where the score of a row x against a weight matrix W and
  the closing weight column w is the vector-matrix-vector product x W w.  That product can be bracketed two
  ways: fold W into w first and then take one inner product with the row ("folded"), or multiply the row into W
  first and then take the inner product with w ("chained").  For real entries the two agree.
-/
import Idealize.ShloMosaic.Lib.ValueIdx
import proofs.«401731_j8005819040423_3_alg».proof.Proof.Rebracket

noncomputable section

namespace Cert.Score

open Idealize.ShloMosaic Idealize.ShloMosaic.ValueIdx Cert.ExtReal

/-- Entry k of the weight matrix times the closing weight column. -/
def foldedWeight (W : (⟨2, ![512, 512]⟩ : Shape).Idx → EReal) (w : (⟨2, ![512, 1]⟩ : Shape).Idx → EReal)
    (k : Fin 512) : EReal :=
  ∑ l : Fin 512, W (ix2 k l) * w (ix2 l (0 : Fin 1))

/-- The score of row r with the weights folded first: the row's inner product with the folded weight column. -/
def rowFolded {n : ℕ} (X : (⟨2, ![n, 512]⟩ : Shape).Idx → EReal) (W : (⟨2, ![512, 512]⟩ : Shape).Idx → EReal)
    (w : (⟨2, ![512, 1]⟩ : Shape).Idx → EReal) (r : Fin n) : EReal :=
  ∑ k : Fin 512, X (ix2 r k) * foldedWeight W w k

/-- The score of row r with the products chained: the row times the matrix, then the inner product with the
    closing weight column. -/
def rowChained {n : ℕ} (X : (⟨2, ![n, 512]⟩ : Shape).Idx → EReal) (W : (⟨2, ![512, 512]⟩ : Shape).Idx → EReal)
    (w : (⟨2, ![512, 1]⟩ : Shape).Idx → EReal) (r : Fin n) : EReal :=
  ∑ l : Fin 512, (∑ k : Fin 512, X (ix2 r k) * W (ix2 k l)) * w (ix2 l (0 : Fin 1))

/-- For real entries the two bracketings of a row's score agree. -/
theorem rowFolded_eq_rowChained {n : ℕ} (X : (⟨2, ![n, 512]⟩ : Shape).Idx → EReal)
    (W : (⟨2, ![512, 512]⟩ : Shape).Idx → EReal) (w : (⟨2, ![512, 1]⟩ : Shape).Idx → EReal)
    (hX : ∀ i, IsFin (X i)) (hW : ∀ i, IsFin (W i)) (hw : ∀ i, IsFin (w i)) (r : Fin n) :
    rowFolded X W w r = rowChained X W w r :=
  sum_mul_sum_rebracket (fun k => X (ix2 r k)) (fun k l => W (ix2 k l)) (fun l => w (ix2 l (0 : Fin 1)))
    (fun _ => hX _) (fun _ _ => hW _) (fun _ => hw _)

/-- Entry (r, c) of the score matrix with the weights folded and the bias joined to the column score first. -/
def scoreFolded (x : (⟨2, ![16384, 512]⟩ : Shape).Idx → EReal) (y : (⟨2, ![8192, 512]⟩ : Shape).Idx → EReal)
    (W1 W2 : (⟨2, ![512, 512]⟩ : Shape).Idx → EReal) (w : (⟨2, ![512, 1]⟩ : Shape).Idx → EReal)
    (b : (⟨1, ![1]⟩ : Shape).Idx → EReal) (r : Fin 16384) (c : Fin 8192) : EReal :=
  rowFolded x W1 w r + (rowFolded y W2 w c + b (ix1 (0 : Fin 1)))

/-- Entry (r, c) of the score matrix with the products chained and the bias added last. -/
def scoreChained (x : (⟨2, ![16384, 512]⟩ : Shape).Idx → EReal) (y : (⟨2, ![8192, 512]⟩ : Shape).Idx → EReal)
    (W1 W2 : (⟨2, ![512, 512]⟩ : Shape).Idx → EReal) (w : (⟨2, ![512, 1]⟩ : Shape).Idx → EReal)
    (b : (⟨1, ![1]⟩ : Shape).Idx → EReal) (r : Fin 16384) (c : Fin 8192) : EReal :=
  (rowChained x W1 w r + rowChained y W2 w c) + b (ix1 (0 : Fin 1))

/-- For real entries the two forms of the score matrix agree: re-bracket each row score, re-associate the sum. -/
theorem scoreFolded_eq_scoreChained (x : (⟨2, ![16384, 512]⟩ : Shape).Idx → EReal)
    (y : (⟨2, ![8192, 512]⟩ : Shape).Idx → EReal) (W1 W2 : (⟨2, ![512, 512]⟩ : Shape).Idx → EReal)
    (w : (⟨2, ![512, 1]⟩ : Shape).Idx → EReal) (b : (⟨1, ![1]⟩ : Shape).Idx → EReal)
    (hx : ∀ i, IsFin (x i)) (hy : ∀ i, IsFin (y i)) (hW1 : ∀ i, IsFin (W1 i)) (hW2 : ∀ i, IsFin (W2 i))
    (hw : ∀ i, IsFin (w i)) (r : Fin 16384) (c : Fin 8192) :
    scoreFolded x y W1 W2 w b r c = scoreChained x y W1 W2 w b r c := by
  unfold scoreFolded scoreChained
  rw [rowFolded_eq_rowChained x W1 w hx hW1 hw r, rowFolded_eq_rowChained y W2 w hy hW2 hw c, add_assoc]

end Cert.Score

end
-- ==== Proof.HostScores.lean ====
/-
  What the pallas call finds in its three operand arrays.  Before the call the program prepares, with ordinary
  array operations: the node matrix in a narrower float format (the same numbers on the extended reals); the
  first weight matrix times the closing weight column, narrowed likewise: the folded weight column; and a row
  of 8192 column scores: the sub-event matrix times the second folded weight column, plus the bias, transposed
  from a column into a row.  Read entry by entry these are the node matrix itself, the folded weight of the
  specification, and the folded row score of each sub-event row with the bias added.
-/
import proofs.«401731_j8005819040423_3_alg».proof.Proof.Gen.KernelIdeal.Frame
import proofs.«401731_j8005819040423_3_alg».proof.Proof.ScoreSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ScoreValue

open Cert.KernelIdeal Cert.KernelIdeal.Gen Idealize.ShloMosaic Idealize.ShloMosaic.TcCoe Idealize.SL.Sem
open Idealize.ShloMosaic.StableHlo Idealize.ShloMosaic.ValueIdx Cert.Score

/-! ## The two matrix-times-column products of the preparation, read at an entry -/

theorem foldDot_lhs_0 (i : S512x1.Idx) (q : dot_S512x512_S512x1_S512x1_1_0_0_1_n_n.contr.Idx) :
    (dot_S512x512_S512x1_S512x1_1_0_0_1_n_n.lhsIdx i q 0).val = (i 0).val := by
  unfold DotDims.lhsIdx
  rw [dif_neg (show ¬(0 : Fin S512x512.rank) ∈ dot_S512x512_S512x1_S512x1_1_0_0_1_n_n.lhsBatch by decide), dif_pos (show (0 : Fin S512x512.rank) ∈ dot_S512x512_S512x1_S512x1_1_0_0_1_n_n.lhsNonContracting by decide)]
  rfl
theorem foldDot_lhs_1 (i : S512x1.Idx) (q : dot_S512x512_S512x1_S512x1_1_0_0_1_n_n.contr.Idx) :
    (dot_S512x512_S512x1_S512x1_1_0_0_1_n_n.lhsIdx i q 1).val = (q ⟨0, by decide⟩).val :=
  dot_S512x512_S512x1_S512x1_1_0_0_1_n_n.lhsIdx_val_of_single rfl i q
theorem foldDot_rhs_0 (i : S512x1.Idx) (q : dot_S512x512_S512x1_S512x1_1_0_0_1_n_n.contr.Idx) :
    (dot_S512x512_S512x1_S512x1_1_0_0_1_n_n.rhsIdx i q 0).val = (q ⟨0, by decide⟩).val :=
  dot_S512x512_S512x1_S512x1_1_0_0_1_n_n.rhsIdx_val_of_single rfl i q
theorem foldDot_rhs_1 (i : S512x1.Idx) (q : dot_S512x512_S512x1_S512x1_1_0_0_1_n_n.contr.Idx) :
    (dot_S512x512_S512x1_S512x1_1_0_0_1_n_n.rhsIdx i q 1).val = (i 1).val := by
  unfold DotDims.rhsIdx
  rw [dif_neg (show ¬(1 : Fin S512x1.rank) ∈ dot_S512x512_S512x1_S512x1_1_0_0_1_n_n.rhsBatch by decide), dif_pos (show (1 : Fin S512x1.rank) ∈ dot_S512x512_S512x1_S512x1_1_0_0_1_n_n.rhsNonContracting by decide)]
  rfl

/-- Entry (p, q) of a 512 x 512 matrix times a 512 x 1 column: row p's inner product with the column. -/
theorem foldDot_apply (l : FVec Ideal S512x512 .f32) (r : FVec Ideal S512x1 .f32) (p : Fin 512) (q : Fin 1) :
    Host.dotGeneral dot_S512x512_S512x1_S512x1_1_0_0_1_n_n none l r (ix2 p q) = ∑ k : Fin 512, l (ix2 p k) * r (ix2 k q) := by
  simp only [Host.dotGeneral]
  rw [Ideal.dotGeneral_apply, ← Equiv.sum_comp (contrEquiv1 dot_S512x512_S512x1_S512x1_1_0_0_1_n_n 512 rfl rfl).symm]
  refine Finset.sum_congr rfl fun k _ => ?_
  have hk := contrEquiv1_symm_val dot_S512x512_S512x1_S512x1_1_0_0_1_n_n 512 rfl rfl k
  have el : dot_S512x512_S512x1_S512x1_1_0_0_1_n_n.lhsIdx (ix2 p q) ((contrEquiv1 dot_S512x512_S512x1_S512x1_1_0_0_1_n_n 512 rfl rfl).symm k) = ix2 p k := funext fun a => Fin.ext (by
    match a with
    | ⟨0, _⟩ => exact foldDot_lhs_0 _ _
    | ⟨1, _⟩ => exact (foldDot_lhs_1 _ _).trans hk)
  have er : dot_S512x512_S512x1_S512x1_1_0_0_1_n_n.rhsIdx (ix2 p q) ((contrEquiv1 dot_S512x512_S512x1_S512x1_1_0_0_1_n_n 512 rfl rfl).symm k) = ix2 k q := funext fun a => Fin.ext (by
    match a with
    | ⟨0, _⟩ => exact (foldDot_rhs_0 _ _).trans hk
    | ⟨1, _⟩ => exact foldDot_rhs_1 _ _)
  rw [el, er]

theorem subDot_lhs_0 (i : S8192x1.Idx) (q : dot_S8192x512_S512x1_S8192x1_1_0_0_1_n_n.contr.Idx) :
    (dot_S8192x512_S512x1_S8192x1_1_0_0_1_n_n.lhsIdx i q 0).val = (i 0).val := by
  unfold DotDims.lhsIdx
  rw [dif_neg (show ¬(0 : Fin S8192x512.rank) ∈ dot_S8192x512_S512x1_S8192x1_1_0_0_1_n_n.lhsBatch by decide), dif_pos (show (0 : Fin S8192x512.rank) ∈ dot_S8192x512_S512x1_S8192x1_1_0_0_1_n_n.lhsNonContracting by decide)]
  rfl
theorem subDot_lhs_1 (i : S8192x1.Idx) (q : dot_S8192x512_S512x1_S8192x1_1_0_0_1_n_n.contr.Idx) :
    (dot_S8192x512_S512x1_S8192x1_1_0_0_1_n_n.lhsIdx i q 1).val = (q ⟨0, by decide⟩).val :=
  dot_S8192x512_S512x1_S8192x1_1_0_0_1_n_n.lhsIdx_val_of_single rfl i q
theorem subDot_rhs_0 (i : S8192x1.Idx) (q : dot_S8192x512_S512x1_S8192x1_1_0_0_1_n_n.contr.Idx) :
    (dot_S8192x512_S512x1_S8192x1_1_0_0_1_n_n.rhsIdx i q 0).val = (q ⟨0, by decide⟩).val :=
  dot_S8192x512_S512x1_S8192x1_1_0_0_1_n_n.rhsIdx_val_of_single rfl i q
theorem subDot_rhs_1 (i : S8192x1.Idx) (q : dot_S8192x512_S512x1_S8192x1_1_0_0_1_n_n.contr.Idx) :
    (dot_S8192x512_S512x1_S8192x1_1_0_0_1_n_n.rhsIdx i q 1).val = (i 1).val := by
  unfold DotDims.rhsIdx
  rw [dif_neg (show ¬(1 : Fin S512x1.rank) ∈ dot_S8192x512_S512x1_S8192x1_1_0_0_1_n_n.rhsBatch by decide), dif_pos (show (1 : Fin S512x1.rank) ∈ dot_S8192x512_S512x1_S8192x1_1_0_0_1_n_n.rhsNonContracting by decide)]
  rfl

/-- Entry (p, q) of the 8192 x 512 matrix times a 512 x 1 column: row p's inner product with the column. -/
theorem subDot_apply (l : FVec Ideal S8192x512 .bf16) (r : FVec Ideal S512x1 .bf16) (p : Fin 8192) (q : Fin 1) :
    Host.dotGeneral dot_S8192x512_S512x1_S8192x1_1_0_0_1_n_n none l r (ix2 p q) = ∑ k : Fin 512, l (ix2 p k) * r (ix2 k q) := by
  simp only [Host.dotGeneral]
  rw [Ideal.dotGeneral_apply, ← Equiv.sum_comp (contrEquiv1 dot_S8192x512_S512x1_S8192x1_1_0_0_1_n_n 512 rfl rfl).symm]
  refine Finset.sum_congr rfl fun k _ => ?_
  have hk := contrEquiv1_symm_val dot_S8192x512_S512x1_S8192x1_1_0_0_1_n_n 512 rfl rfl k
  have el : dot_S8192x512_S512x1_S8192x1_1_0_0_1_n_n.lhsIdx (ix2 p q) ((contrEquiv1 dot_S8192x512_S512x1_S8192x1_1_0_0_1_n_n 512 rfl rfl).symm k) = ix2 p k := funext fun a => Fin.ext (by
    match a with
    | ⟨0, _⟩ => exact subDot_lhs_0 _ _
    | ⟨1, _⟩ => exact (subDot_lhs_1 _ _).trans hk)
  have er : dot_S8192x512_S512x1_S8192x1_1_0_0_1_n_n.rhsIdx (ix2 p q) ((contrEquiv1 dot_S8192x512_S512x1_S8192x1_1_0_0_1_n_n 512 rfl rfl).symm k) = ix2 k q := funext fun a => Fin.ext (by
    match a with
    | ⟨0, _⟩ => exact (subDot_rhs_0 _ _).trans hk
    | ⟨1, _⟩ => exact subDot_rhs_1 _ _)
  rw [el, er]

/-! ## The operand arrays as the call finds them -/

variable (m : (ℓ : Loc nD τ sig) → Buf (Elt Ideal) ℓ)

/-- The six argument arrays, at their literal shapes. -/
abbrev nodes (c : Dev nD) : FVec Ideal S16384x512 .f32 := m ((c : Thread nD τ).loc main_arg0)
abbrev subEvents (c : Dev nD) : FVec Ideal S8192x512 .f32 := m ((c : Thread nD τ).loc main_arg1)
abbrev weight1 (c : Dev nD) : FVec Ideal S512x512 .f32 := m ((c : Thread nD τ).loc main_arg2)
abbrev weight2 (c : Dev nD) : FVec Ideal S512x512 .f32 := m ((c : Thread nD τ).loc main_arg3)
abbrev weight3 (c : Dev nD) : FVec Ideal S512x1 .f32 := m ((c : Thread nD τ).loc main_arg4)
abbrev bias (c : Dev nD) : FVec Ideal S1 .f32 := m ((c : Thread nD τ).loc main_arg5)

/-- The call's three operand arrays as it finds them, at their literal shapes. -/
abbrev nodeArr (c : Dev nD) : FVec Ideal S16384x512 .bf16 := V m c main_v10
abbrev weightArr (c : Dev nD) : FVec Ideal S512x1 .bf16 := V m c main_v1
abbrev rowArr (c : Dev nD) : FVec Ideal S1x8192 .f32 := V m c main_v9

/-- The node operand is the node matrix, narrowed. -/
theorem nodeArr_eq (c : Dev nD) : nodeArr m c = truncf .bf16 (nodes m c) bitsLt_bf16_f32 := by
  show V m c main_v10 = _
  dsimp only [Gen.V, Gen.hostOps0]; after_results

/-- The weight operand is the first weight matrix times the closing column, narrowed. -/
theorem weightArr_eq (c : Dev nD) : weightArr m c
    = truncf .bf16 (Host.dotGeneral dot_S512x512_S512x1_S512x1_1_0_0_1_n_n none (weight1 m c) (weight3 m c)) bitsLt_bf16_f32 := by
  show V m c main_v1 = _
  dsimp only [Gen.V, Gen.hostOps0]; after_results

/-- The row operand: the narrowed sub-event matrix times the narrowed second folded column, plus the bias
    broadcast down the column, transposed into a row. -/
theorem rowArr_eq (c : Dev nD) : rowArr m c
    = transpose S1x8192 [1, 0]
        (addf (Host.dotGeneral dot_S8192x512_S512x1_S8192x1_1_0_0_1_n_n none
            (truncf .bf16 (subEvents m c) bitsLt_bf16_f32)
            (truncf .bf16 (Host.dotGeneral dot_S512x512_S512x1_S512x1_1_0_0_1_n_n none (weight2 m c) (weight3 m c)) bitsLt_bf16_f32))
          (broadcastInDim S8192x1 ![0, 1] bcast_S1x1_S8192x1_0_1 (broadcastInDim S1x1 ![1] bcast_S1_S1x1_1 (bias m c))))
        transposes_S8192x1_S1x8192_1_0 := by
  show V m c main_v9 = _
  dsimp only [Gen.V, Gen.hostOps0]; after_results

/-- Entry (r, k) of the node operand is entry (r, k) of the node matrix. -/
theorem nodeArr_entry (c : Dev nD) (i : S16384x512.Idx) : nodeArr m c i = nodes m c i := by
  rw [nodeArr_eq]; rfl

/-- Entry k of the weight operand is the folded weight of the first weight matrix. -/
theorem weightArr_entry (c : Dev nD) (k : Fin 512) :
    weightArr m c (ix2 k (0 : Fin 1)) = foldedWeight (weight1 m c) (weight3 m c) k := by
  rw [weightArr_eq, truncf_apply, foldDot_apply]
  rfl

/-- The bias reaches every entry of the column it is broadcast down. -/
theorem bias_broadcast_entry (b : FVec Ideal S1 .f32) (q : Fin 8192) :
    broadcastInDim S8192x1 ![0, 1] bcast_S1x1_S8192x1_0_1 (broadcastInDim S1x1 ![1] bcast_S1_S1x1_1 b) (ix2 q (0 : Fin 1))
      = b (ix1 (0 : Fin 1)) := by
  rw [broadcastInDim_apply _ bcast_S1x1_S8192x1_0_1 _ (ix2 q (0 : Fin 1)) (ix2 (0 : Fin 1) (0 : Fin 1)) (fun a => match a with
      | ⟨0, _⟩ => rfl
      | ⟨1, _⟩ => rfl),
    broadcastInDim_apply _ bcast_S1_S1x1_1 _ (ix2 (0 : Fin 1) (0 : Fin 1)) (ix1 (0 : Fin 1)) (fun a => match a with
      | ⟨0, _⟩ => rfl)]

/-- Entry q of the row operand is the folded score of sub-event row q plus the bias. -/
theorem rowArr_entry (c : Dev nD) (q : Fin 8192) :
    rowArr m c (ix2 (0 : Fin 1) q)
      = rowFolded (subEvents m c) (weight2 m c) (weight3 m c) q + bias m c (ix1 (0 : Fin 1)) := by
  rw [rowArr_eq, transpose_ix2_apply, addf_apply, subDot_apply, bias_broadcast_entry]
  unfold rowFolded
  congr 1
  refine Finset.sum_congr rfl fun k _ => ?_
  rw [truncf_apply, truncf_apply, foldDot_apply]
  rfl

end Cert.KernelIdeal.ScoreValue

end
-- ==== Proof.ScoreArray.lean ====
/-
  The whole output array after the run.  The grid has eight row tiles by eight column tiles, visited row tile
  by row tile; step t works on row tile t / 8 and column tile t % 8.  The scratch column is refreshed on the
  first column tile of each row tile and kept for the other seven, so after every step it holds, at row p, the
  inner product of node row (t / 8) * 2048 + p with the folded weight column: by induction on the step.  The
  output tile written at step t is therefore, at (p, q), that row score plus entry (t % 8) * 1024 + q of the
  column-score row.  Every output entry lies in exactly the tile of one step, so the array ends holding, at
  (r, s), the score of node row r plus entry s of the column-score row.
-/
import proofs.«401731_j8005819040423_3_alg».proof.Proof.Gen.KernelIdeal.Value
import proofs.«401731_j8005819040423_3_alg».proof.Proof.StepValues
import proofs.«401731_j8005819040423_3_alg».proof.Proof.TileEntries
import proofs.«401731_j8005819040423_3_alg».proof.Proof.HostScores

noncomputable section

namespace Cert.KernelIdeal.ScoreValue

open Cert.KernelIdeal Cert.KernelIdeal.Gen Idealize.ShloMosaic Idealize.ShloMosaic.TcCoe Idealize.SL.Sem
open Idealize.ShloMosaic.Pipeline (Dat)
open Idealize.ShloMosaic.ValueIdx Cert.Score

variable (m : (ℓ : Loc nD τ sig) → Buf (Elt Ideal) ℓ) (ρ : Dev nD → PrngReg)

/-! ## Where each step's tiles sit in their arrays -/

/-- The tile indices at step t: the node tile follows the row tile, the weight column is always the whole
    column, the score-row slice follows the column tile, the output tile follows both. -/
theorem tile_indices : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = t.val % 8 :=
  (by decide +kernel : ∀ t : Fin grid0.N, _)

/-- The three input tiles of step t, at their literal shapes. -/
abbrev nodeTile (c : Dev nD) (t : Fin cfg0.N) : FVec Ideal S2048x512 .bf16 := iblk m c 0 t
abbrev weightTile (c : Dev nD) (t : Fin cfg0.N) : FVec Ideal S512x1 .bf16 := iblk m c 1 t
abbrev rowTile (c : Dev nD) (t : Fin cfg0.N) : FVec Ideal S1x1024 .f32 := iblk m c 2 t

/-- Row p of step t's node tile is row (t / 8) * 2048 + p of the node operand. -/
theorem nodeTile_entry (c : Dev nD) (t : Fin cfg0.N) (p : Fin 2048) (k : Fin 512) (r : Fin 16384)
    (hr : r.val = t.val / 8 * 2048 + p.val) : nodeTile m c t (ix2 p k) = nodeArr m c (ix2 r k) := by
  obtain ⟨e0, e1, -⟩ := tile_indices t
  show ((cfg0.win 0).blk t).view.read (Elt Ideal) (V m c (Pipeline.arrRef spec0 0)) (ix2 p k) = V m c main_v10 (ix2 r k)
  rw [View.read_apply]
  show V m c main_v10 _ = V m c main_v10 _
  refine congrArg (V m c main_v10 : S16384x512.Idx → EReal) (funext fun a => Fin.ext ?_)
  match a with
  | ⟨0, _⟩ => show win0_0.index t (0 : Fin 2) * 2048 + 1 * p.val = r.val; rw [e0, hr]; omega
  | ⟨1, _⟩ => show win0_0.index t (1 : Fin 2) * 512 + 1 * k.val = k.val; rw [e1]; omega

/-- Step t's weight tile is the whole weight operand. -/
theorem weightTile_entry (c : Dev nD) (t : Fin cfg0.N) (k : Fin 512) :
    weightTile m c t (ix2 k (0 : Fin 1)) = weightArr m c (ix2 k (0 : Fin 1)) := by
  obtain ⟨-, -, e0, e1, -⟩ := tile_indices t
  show ((cfg0.win 1).blk t).view.read (Elt Ideal) (V m c (Pipeline.arrRef spec0 1)) (ix2 k (0 : Fin 1)) = V m c main_v1 (ix2 k (0 : Fin 1))
  rw [View.read_apply]
  show V m c main_v1 _ = V m c main_v1 _
  refine congrArg (V m c main_v1 : S512x1.Idx → EReal) (funext fun a => Fin.ext ?_)
  match a with
  | ⟨0, _⟩ => show win0_1.index t (0 : Fin 2) * 512 + 1 * k.val = k.val; rw [e0]; omega
  | ⟨1, _⟩ => show win0_1.index t (1 : Fin 2) * 1 + 1 * 0 = 0; rw [e1]

/-- Entry q of step t's score-row slice is entry (t % 8) * 1024 + q of the row operand. -/
theorem rowTile_entry (c : Dev nD) (t : Fin cfg0.N) (q : Fin 1024) (s : Fin 8192)
    (hs : s.val = t.val % 8 * 1024 + q.val) : rowTile m c t (ix2 (0 : Fin 1) q) = rowArr m c (ix2 (0 : Fin 1) s) := by
  obtain ⟨-, -, -, -, e0, e1, -⟩ := tile_indices t
  show ((cfg0.win 2).blk t).view.read (Elt Ideal) (V m c (Pipeline.arrRef spec0 2)) (ix2 (0 : Fin 1) q) = V m c main_v9 (ix2 (0 : Fin 1) s)
  rw [View.read_apply]
  show V m c main_v9 _ = V m c main_v9 _
  refine congrArg (V m c main_v9 : S1x8192.Idx → EReal) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = s.val; rw [e1, hs]; omega

/-! ## The scratch column and the output tile after each step -/

/-- The score of node row r against the weight operand, as the call computes it. -/
def rowScore (c : Dev nD) (r : Fin 16384) : EReal :=
  ∑ k : Fin 512, nodeArr m c (ix2 r k) * weightArr m c (ix2 k (0 : Fin 1))

/-- After a first column tile, row p of the scratch is the score of the row tile's row p. -/
theorem scratch_fresh (c : Dev nD) (t : Fin cfg0.N) (h0 : t.val % 8 = 0) (p : Fin 2048) (r : Fin 16384)
    (hr : r.val = t.val / 8 * 2048 + p.val) :
    ((outsAt0 m c t.val t.isLt).2 : FVec Ideal S2048x1 .f32) (ix2 p (0 : Fin 1)) = rowScore m c r := by
  refine (congrFun (scratch_at_first m c t h0) (ix2 p (0 : Fin 1))).trans ?_
  refine (product_entry (nodeTile m c t) (weightTile m c t) p).trans ?_
  unfold rowScore
  refine Finset.sum_congr rfl fun k _ => ?_
  rw [nodeTile_entry m c t p k r hr, weightTile_entry m c t k]

/-- After every step, row p of the scratch is the score of row p of the current row tile. -/
theorem scratch_entry (c : Dev nD) : ∀ (n : ℕ) (h : n < cfg0.N) (p : Fin 2048) (r : Fin 16384),
    r.val = n / 8 * 2048 + p.val →
    ((outsAt0 m c n h).2 : FVec Ideal S2048x1 .f32) (ix2 p (0 : Fin 1)) = rowScore m c r := by
  intro n
  induction n with
  | zero => intro h p r hr; exact scratch_fresh m c ⟨0, h⟩ rfl p r hr
  | succ n ih =>
    intro h p r hr
    by_cases h0 : (n + 1) % 8 = 0
    · exact scratch_fresh m c ⟨n + 1, h⟩ h0 p r hr
    · refine (congrFun (scratch_at_later m c ⟨n + 1, h⟩ h0) (ix2 p (0 : Fin 1))).trans ?_
      exact ih (Nat.lt_of_succ_lt h) p r (by omega)

/-- After step t, entry (p, q) of the output tile is the score of node row (t / 8) * 2048 + p plus entry
    (t % 8) * 1024 + q of the row operand. -/
theorem tile_at (c : Dev nD) (t : Fin cfg0.N) (p : Fin 2048) (q : Fin 1024) (r : Fin 16384) (s : Fin 8192)
    (hr : r.val = t.val / 8 * 2048 + p.val) (hs : s.val = t.val % 8 * 1024 + q.val) :
    ((outsAt0 m c t.val t.isLt).1 : FVec Ideal S2048x1024 .f32) (ix2 p q)
      = rowScore m c r + rowArr m c (ix2 (0 : Fin 1) s) := by
  refine (congrFun (tile_of_scratch m c t) (ix2 p q)).trans ?_
  refine (tile_entry (outsAt0 m c t.val t.isLt).2 (rowTile m c t) p q).trans ?_
  rw [scratch_entry m c t.val t.isLt p r hr, rowTile_entry m c t q s hs]

/-! ## From tiles to the array -/

/-- What the output array ends holding: at (r, s) the score of node row r plus entry s of the row operand. -/
def scoreArr (c : Dev nD) : S16384x8192.Idx → EReal := fun i =>
  rowScore m c ⟨(i 0).val, (i 0).isLt⟩ + rowArr m c (ix2 (0 : Fin 1) ⟨(i 1).val, (i 1).isLt⟩)

/-- What step t writes back is tile t of that array. -/
theorem flushed_eq (c : Dev nD) (t : Fin cfg0.N) :
    (dats m 0 c).flushed 3 t = ((cfg0.win 3).blk t).view.read (Elt Ideal) (scoreArr m c) := by
  rw [Value.flushed3]
  obtain ⟨-, -, -, -, -, -, e0, e1⟩ := tile_indices t
  funext j
  obtain ⟨p, q, rfl⟩ : ∃ (p : Fin 2048) (q : Fin 1024), j = ix2 p q := ⟨j 0, j 1, eq_ix2 j⟩
  show ((outsAt0 m c t.val t.isLt).1 : FVec Ideal S2048x1024 .f32) (ix2 p q) = scoreArr m c (((cfg0.win 3).blk t).view.emb (ix2 p q))
  unfold scoreArr
  exact tile_at m c t p q _ _
    (by show win0_3.index t (0 : Fin 2) * 2048 + 1 * p.val = _; rw [e0]; omega)
    (by show win0_3.index t (1 : Fin 2) * 1024 + 1 * q.val = _; rw [e1]; omega)

/-- An index of the output array lies in step t's tile iff each coordinate is in the tile's range. -/
theorem mem_tile (t : Fin cfg0.N) (i : S16384x8192.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v11).slice (win0_3.rect t)).set ↔ _
  rw [View.set_slice_whole, Rect.mem_set_unit]
  exact Iff.rfl

/-- Every output entry lies in the tile of the step that works on its row tile and its column tile. -/
theorem covered (i : S16384x8192.Idx) :
    ∃ t : Fin cfg0.N, (cfg0.win 3).flush t = true ∧ i ∈ ((cfg0.win 3).blk t).view.set := by
  have hi0 : (i 0).val < 16384 := (i 0).isLt
  have hi1 : (i 1).val < 8192 := (i 1).isLt
  have hN : cfg0.N = 64 := N_0
  let t : Fin cfg0.N := ⟨(i 0).val / 2048 * 8 + (i 1).val / 1024, by rw [hN]; omega⟩
  have ht : t.val = (i 0).val / 2048 * 8 + (i 1).val / 1024 := rfl
  obtain ⟨-, -, -, -, -, -, e0, e1⟩ := tile_indices t
  refine ⟨t, flush0_3 t, ?_⟩
  rw [mem_tile]
  intro a
  match a with
  | ⟨0, _⟩ => show win0_3.index t (0 : Fin 2) * 2048 ≤ (i 0).val ∧ (i 0).val < win0_3.index t (0 : Fin 2) * 2048 + 2048; rw [e0, ht]; omega
  | ⟨1, _⟩ => show win0_3.index t (1 : Fin 2) * 1024 ≤ (i 1).val ∧ (i 1).val < win0_3.index t (1 : Fin 2) * 1024 + 1024; rw [e1, ht]; omega

/-- The output array after the run. -/
theorem final (c : Dev nD) : (dats m 0 c).arrAt 3 cfg0.N = scoreArr m c :=
  (dats m 0 c).arrAt_eq_of_cover 3 (scoreArr m c) (fun t _ => flushed_eq m c t) (covered)

/-- The run: every execution ends with the output array at that function and the arguments unchanged. -/
theorem run : θ_run defs (onTc (τ := τ) (main (F := Ideal))) ⟨m, fun _ => 0, ρ⟩ fun r => ∀ c : Dev nD,
      r.2.mem ((c : Thread nD τ).loc main_v11) = scoreArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

/-- Entry (r, s) of the output array is the folded score matrix of the six arguments. -/
theorem scoreArr_entry (c : Dev nD) (r : Fin 16384) (s : Fin 8192) :
    scoreArr m c (ix2 r s)
      = scoreFolded (nodes m c) (subEvents m c) (weight1 m c) (weight2 m c) (weight3 m c) (bias m c) r s := by
  unfold scoreArr scoreFolded
  rw [rowArr_entry]
  congr 1
  unfold rowScore rowFolded
  refine Finset.sum_congr rfl fun k _ => ?_
  rw [nodeArr_entry, weightArr_entry]

end Cert.KernelIdeal.ScoreValue

end
-- ==== Proof.RefScore.lean ====
/-
  The reference program's result, entry by entry.  It multiplies the node matrix into the first weight matrix
  and then into the closing weight column, does the same for the sub-event matrix and the second weight
  matrix, adds the first result as a column and the second, transposed, as a row (each broadcast to the full
  matrix), and adds the bias broadcast to every entry last.  Read at (r, c) this is the chained score of node
  row r plus the chained score of sub-event row c, plus the bias.
-/
import proofs.«401731_j8005819040423_3_alg».proof.Proof.Gen.ReferenceIdeal.Read
import proofs.«401731_j8005819040423_3_alg».proof.Proof.ScoreSpec

noncomputable section

namespace Cert.ReferenceIdeal.ScoreValue

open Cert.ReferenceIdeal Cert.ReferenceIdeal.Gen Cert.ReferenceIdeal.Read Idealize.ShloMosaic Idealize.ShloMosaic.ValueIdx
open Cert.Score

/-- Entry (r, c) of the reference's result is the chained score matrix's entry (r, c). -/
theorem result_entry (x0 : FVec Ideal S16384x512 .f32) (x1 : FVec Ideal S8192x512 .f32) (x2 x3 : FVec Ideal S512x512 .f32)
    (x4 : FVec Ideal S512x1 .f32) (x5 : FVec Ideal S1 .f32) (r : Fin 16384) (c : Fin 8192) :
    val_main_v10 (F := Ideal) x0 x1 x2 x3 x4 x5 (ix2 r c) = scoreChained x0 x1 x2 x3 x4 x5 r c := by
  have eNode : ∀ l k : Fin 512, lidx_main_v0 (lidx_main_v1 (idx_main_v5 (ix2 r c)) l) k = ix2 r k := fun l k =>
    funext fun a => Fin.ext (by match a with | ⟨0, _⟩ => rfl | ⟨1, _⟩ => rfl)
  have eW1 : ∀ l k : Fin 512, ridx_main_v0 (lidx_main_v1 (idx_main_v5 (ix2 r c)) l) k = ix2 k l := fun l k =>
    funext fun a => Fin.ext (by match a with | ⟨0, _⟩ => rfl | ⟨1, _⟩ => rfl)
  have eCol1 : ∀ l : Fin 512, ridx_main_v1 (idx_main_v5 (ix2 r c)) l = ix2 l (0 : Fin 1) := fun l =>
    funext fun a => Fin.ext (by match a with | ⟨0, _⟩ => rfl | ⟨1, _⟩ => rfl)
  have eSub : ∀ l k : Fin 512, lidx_main_v2 (lidx_main_v3 (idx_main_v4 (idx_main_v6 (ix2 r c))) l) k = ix2 c k := fun l k =>
    funext fun a => Fin.ext (by match a with | ⟨0, _⟩ => rfl | ⟨1, _⟩ => rfl)
  have eW2 : ∀ l k : Fin 512, ridx_main_v2 (lidx_main_v3 (idx_main_v4 (idx_main_v6 (ix2 r c))) l) k = ix2 k l := fun l k =>
    funext fun a => Fin.ext (by match a with | ⟨0, _⟩ => rfl | ⟨1, _⟩ => rfl)
  have eCol2 : ∀ l : Fin 512, ridx_main_v3 (idx_main_v4 (idx_main_v6 (ix2 r c))) l = ix2 l (0 : Fin 1) := fun l =>
    funext fun a => Fin.ext (by match a with | ⟨0, _⟩ => rfl | ⟨1, _⟩ => rfl)
  have eBias : idx_main_v8 (idx_main_v9 (ix2 r c)) = ix1 (0 : Fin 1) :=
    funext fun a => Fin.ext (by match a with | ⟨0, _⟩ => rfl)
  rw [val_main_v10_apply, val_main_v7_apply, val_main_v5_apply, val_main_v6_apply, val_main_v4_apply,
    val_main_v9_apply, val_main_v8_apply, val_main_v1_apply, val_main_v3_apply]
  simp only [val_main_v0_apply, val_main_v2_apply, eNode, eW1, eCol1, eSub, eW2, eCol2, eBias]
  rfl

end Cert.ReferenceIdeal.ScoreValue

end
-- ==== Proof.FiniteInputs.lean ====
/-
  The precondition, decoded.  It says of each of the six arguments that every entry has absolute value
  strictly below plus infinity, all six conjoined.  On the extended reals an entry whose absolute value is
  below plus infinity is neither infinity, so it is a real number.
-/
import proofs.«401731_j8005819040423_3_alg».proof.Pre_finite_inputs
import proofs.«401731_j8005819040423_3_alg».proof.Proof.LibExtReal
import Idealize.ShloMosaic.Lib.ReduceAll
import Idealize.ShloMosaic.Lib.ValueIdx
import Idealize.ShloMosaic.PureOps.Ideal.Laws

noncomputable section

namespace Cert.Score

open Idealize.ShloMosaic Cert.ExtReal Cert.Pre_finite_inputs

/-- The shape with no axes has exactly one index. -/
instance scalarIdx_subsingleton : Subsingleton S_.Idx := ⟨fun a b => funext fun d => d.elim0⟩

/-- The float pattern with all exponent bits set and no fraction bits is plus infinity. -/
theorem inf_pattern : Ideal.ofBits .f32 0x7F800000#32 = ⊤ := by
  simp [Ideal.ofBits, Ideal.ieee]

/-- An extended real whose absolute value compares below plus infinity is a real number. -/
theorem isFin_of_abs_lt_inf (x : EReal)
    (h : Ideal.cmp .olt (max x (-x)) (Ideal.ofBits .f32 0x7F800000#32) = 1#1) : IsFin x := by
  rw [inf_pattern] at h
  induction x using EReal.rec with
  | bot => exfalso; simp [Ideal.cmp] at h
  | coe r => exact ⟨r, rfl⟩
  | top => exfalso; simp [Ideal.cmp] at h

/-- Under the precondition the five float arguments that enter products are arrays of real numbers. -/
theorem finite_of_pre [Facts] (a0 : FVec Ideal S16384x512 .f32) (a1 : FVec Ideal S8192x512 .f32)
    (a2 a3 : FVec Ideal S512x512 .f32) (a4 : FVec Ideal S512x1 .f32) (a5 : FVec Ideal S1 .f32)
    (h : fn (F := Ideal) a0 a1 a2 a3 a4 a5 = fun _ => 1#1) :
    (∀ i, IsFin (a0 i)) ∧ (∀ i, IsFin (a1 i)) ∧ (∀ i, IsFin (a2 i)) ∧ (∀ i, IsFin (a3 i)) ∧ (∀ i, IsFin (a4 i)) := by
  have h0 := congrFun h ValueIdx.ix0
  dsimp only [fn, fn_part1] at h0
  obtain ⟨h01234, -⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨fun i => isFin_of_abs_lt_inf _ (Host.reduce_andi_all _ _ _ _ _ e0 i),
    fun i => isFin_of_abs_lt_inf _ (Host.reduce_andi_all _ _ _ _ _ e1 i),
    fun i => isFin_of_abs_lt_inf _ (Host.reduce_andi_all _ _ _ _ _ e2 i),
    fun i => isFin_of_abs_lt_inf _ (Host.reduce_andi_all _ _ _ _ _ e3 i),
    fun i => isFin_of_abs_lt_inf _ (Host.reduce_andi_all _ _ _ _ _ e4 i)⟩

end Cert.Score

end
-- ==== Proof.lean ====
/-
  The kernel and the reference compute the same 16384 x 8192 score matrix on the extended reals.

  Entry (r, c) of the reference is ((node row r) W1) w + ((sub-event row c) W2) w + b: each row is multiplied into
  its weight matrix and then into the closing weight column w, the two scores are added, and the bias b is added
  last.  The kernel folds first: it forms W1 w and W2 w before the call, computes the column scores
  (sub-event row c)(W2 w) + b ahead of the call as a row of 8192 numbers, and inside the call computes the row
  scores (node row r)(W1 w) one row tile at a time, keeps them in a scratch column across the eight column tiles
  of that row tile, and writes each output tile as the broadcast sum of the scratch column and a slice of the
  column-score row.  The narrower float format it passes some operands through is the identity here.

  So the two sides differ by the bracketing of a vector-matrix-vector product, twice, and by the association of
  a three-term sum.  The re-bracketing moves a factor across a finite sum, which on the extended reals needs
  every entry to be a real number: that is what the precondition supplies.  The re-association is free.

  The frames of the two kernel programs are the generated ones; the reference's frame is its generated run with
  the result dropped; the idealization rewrote nothing, so preservation is trivial.
-/
import proofs.«401731_j8005819040423_3_alg».proof.Defs
import proofs.«401731_j8005819040423_3_alg».proof.Proof.Gen.Kernel
import proofs.«401731_j8005819040423_3_alg».proof.Proof.Gen.Kernel.Skeleton
import proofs.«401731_j8005819040423_3_alg».proof.Proof.Gen.Kernel.Launch
import proofs.«401731_j8005819040423_3_alg».proof.Proof.Gen.Kernel.Points
import proofs.«401731_j8005819040423_3_alg».proof.Proof.Gen.Kernel.Frame
import proofs.«401731_j8005819040423_3_alg».proof.Proof.Gen.KernelIdeal
import proofs.«401731_j8005819040423_3_alg».proof.Proof.Gen.KernelIdeal.Skeleton
import proofs.«401731_j8005819040423_3_alg».proof.Proof.Gen.KernelIdeal.Launch
import proofs.«401731_j8005819040423_3_alg».proof.Proof.Gen.KernelIdeal.Points
import proofs.«401731_j8005819040423_3_alg».proof.Proof.Gen.KernelIdeal.Frame
import proofs.«401731_j8005819040423_3_alg».proof.Proof.Gen.ReferenceIdeal
import proofs.«401731_j8005819040423_3_alg».proof.Proof.Gen.Pre_finite_inputs
import proofs.«401731_j8005819040423_3_alg».proof.Proof.Gen.KernelIdeal.Value
import proofs.«401731_j8005819040423_3_alg».proof.Proof.Gen.ReferenceIdeal.Run
import proofs.«401731_j8005819040423_3_alg».proof.Proof.Gen.ReferenceIdeal.Read
import proofs.«401731_j8005819040423_3_alg».proof.Proof.ScoreArray
import proofs.«401731_j8005819040423_3_alg».proof.Proof.RefScore
import proofs.«401731_j8005819040423_3_alg».proof.Proof.FiniteInputs
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the score matrix: the kernel's array is the folded form of it entry by entry, the
    reference's the chained form, and for real inputs the two forms agree. -/
theorem algebraic : Cert.algebraic_KernelIdeal_ReferenceIdeal := by
  intro m ρ m' ρ' hpre hagree
  refine ⟨fun c => Cert.KernelIdeal.ScoreValue.scoreArr m c, Cert.KernelIdeal.ScoreValue.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.ScoreValue.scoreArr m c
  obtain ⟨a0, a1, a2, a3, a4, a5⟩ := hagree c
  rw [a0, a1, a2, a3, a4, a5, Cert.ReferenceIdeal.Read.val_main_v10_eq]
  funext i
  obtain ⟨r, s, rfl⟩ : ∃ (r : Fin 16384) (s : Fin 8192), i = ix2 r s := ⟨i 0, i 1, eq_ix2 i⟩
  rw [Cert.ReferenceIdeal.ScoreValue.result_entry, Cert.KernelIdeal.ScoreValue.scoreArr_entry]
  obtain ⟨f0, f1, f2, f3, f4⟩ := Cert.Score.finite_of_pre _ _ _ _ _ _ (hpre c)
  exact (Cert.Score.scoreFolded_eq_scoreChained _ _ _ _ _ _ f0 f1 f2 f3 f4 r s).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
